-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16384x256 .f32) (main_arg1 : FVec F S1024x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S16384x256 : Shape := ⟨2, ![16384, 256]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S16384x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .f32 = 32 ∨ (Rect.block (s := S16384x256) S1024x256.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S256x1024 : Shape := ⟨2, ![256, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S256x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x256, .f32⟩
  | .hbm, ⟨42, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  transposes_S1024x256_S256x1024_1_0 : S1024x256.Transposes [1, 0] S256x1024
  reducesTo_S16384x1024_S16384_d1 : S16384x1024.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  dot_S16384x256_S256x1024_S16384x1024_1_0_0_1_n_n_wf : DotDims.WF S16384x256 S256x1024 S16384x1024 [1] [0] [0] [1] [] []
  dot_S16384x1024_S1024x256_S16384x256_1_0_0_1_n_n_wf : DotDims.WF S16384x1024 S1024x256 S16384x256 [1] [0] [0] [1] [] []

variable [Facts₀]

def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf

class Facts : Prop extends Facts₀ where

variable [Facts]
-- ==== Proof.LibERealRows.lean ====
/-
  General facts about rows of real numbers inside the extended reals, as float programs read at exact arithmetic
  meet them.

  * The patterns of `-∞`, `+∞` and `1.0` denote `⊥`, `⊤` and `1`.
  * An extended real whose absolute value `max x (−x)` compares below `+∞` is a real.
  * A finite sum of coerced reals is the coerced sum; a finite sum of products of reals is a real.
  * The maximum of a nonempty row of reals, folded from `-∞`, is a real.
  * A softmax does not see a common shift: for a real row `s` and a real `M`,
    `exp (s j − M) / Σ exp (s i − M) = exp (s j) · (1 / Σ exp (s i))`, the quotient and the product with the reciprocal
    being the same because both sums are positive reals.
-/
import Idealize.ShloMosaic.PureOps.Ideal
import Idealize.ShloMosaic.PureOps.Ideal.Laws
import Mathlib.Analysis.SpecialFunctions.Exp

noncomputable section

namespace Cert.ERealRows

open Idealize.ShloMosaic

/-! ## Float literals as extended reals -/

/-- The pattern of `-∞` denotes the bottom element. -/
theorem ofBits_negInf : Ideal.ofBits .f32 0xFF800000#32 = ⊥ := by
  simp [Ideal.ofBits, Ideal.ieee]

/-- The pattern of `+∞` denotes the top element. -/
theorem ofBits_posInf : Ideal.ofBits .f32 0x7F800000#32 = ⊤ := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- An extended real whose absolute value compares below `+∞` is a real: `max x (−x)` is `+∞` at both infinities. -/
theorem real_of_abs_lt_inf (x : EReal) (h : Ideal.cmp .olt (max x (-x)) (Ideal.ofBits .f32 0x7F800000#32) = 1#1) :
    ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-! ## Sums and maxima of real rows -/

section Rows

variable {ι : Type*} [Fintype ι]

/-- A finite sum of coerced reals is the coerced sum. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of coerced reals is a real. -/
theorem sum_mul_real {κ : Type*} [Fintype κ] (u v : κ → ℝ) : ∃ r : ℝ, ∑ k, (u k : EReal) * (v k : EReal) = (r : EReal) :=
  ⟨∑ k, u k * v k, by rw [← coe_sum]; exact Finset.sum_congr rfl fun k _ => (EReal.coe_mul _ _).symm⟩

/-- The maximum of a nonempty row of reals, folded from `-∞`, is a real: it is below `+∞` because every entry is,
    and above `-∞` because some entry is. -/
theorem fold_max_real [Nonempty ι] (f : ι → ℝ) :
    ∃ M : ℝ, (Finset.univ : Finset ι).fold max (⊥ : EReal) (fun j => (f j : EReal)) = (M : EReal) := by
  have h1 : (Finset.univ : Finset ι).fold max (⊥ : EReal) (fun j => (f j : EReal)) ≠ ⊤ := by
    refine ne_of_lt ?_
    rw [Finset.fold_max_lt]
    exact ⟨bot_lt_top, fun x _ => EReal.coe_lt_top _⟩
  have h2 : (Finset.univ : Finset ι).fold max (⊥ : EReal) (fun j => (f j : EReal)) ≠ ⊥ := by
    obtain ⟨j0⟩ := ‹Nonempty ι›
    refine ne_of_gt (lt_of_lt_of_le (EReal.bot_lt_coe (f j0)) ?_)
    rw [Finset.le_fold_max]
    exact Or.inr ⟨j0, Finset.mem_univ _, le_rfl⟩
  exact ⟨_, (EReal.coe_toReal h1 h2).symm⟩

/-- A softmax does not see a common shift, and its quotient is the product with the reciprocal of the unshifted sum:
    `exp (s j − M) = exp (s j) / exp M` with `exp M` a positive real common to numerator and denominator. -/
theorem softmax_shift [Nonempty ι] (s : ι → ℝ) (M : ℝ) (j : ι) :
    Ideal.div (Ideal.exp ((s j : EReal) - (M : EReal))) (∑ i, Ideal.exp ((s i : EReal) - (M : EReal)))
      = Ideal.exp (s j : EReal) * Ideal.div 1 (∑ i, Ideal.exp (s i : EReal)) := by
  have h1 : ∀ i, Ideal.exp ((s i : EReal) - (M : EReal)) = ((Real.exp (s i - M) : ℝ) : EReal) := fun i => by
    rw [← EReal.coe_sub]; rfl
  have h2 : ∀ i, Ideal.exp (s i : EReal) = ((Real.exp (s i) : ℝ) : EReal) := fun i => rfl
  have hS1 : 0 < ∑ i, Real.exp (s i - M) := Finset.sum_pos (fun i _ => Real.exp_pos _) Finset.univ_nonempty
  have hS2 : 0 < ∑ i, Real.exp (s i) := Finset.sum_pos (fun i _ => Real.exp_pos _) Finset.univ_nonempty
  simp only [h1, h2, coe_sum]
  rw [Ideal.div_coe hS1.ne', Ideal.div_coe hS2.ne', one_mul, ← EReal.coe_mul, ← EReal.coe_mul]
  congr 1
  have hsub : ∀ i, Real.exp (s i - M) = Real.exp (s i) / Real.exp M := fun i => Real.exp_sub _ _
  have hM0 : Real.exp M ≠ 0 := (Real.exp_pos M).ne'
  have hS20 : (∑ i, Real.exp (s i)) ≠ 0 := hS2.ne'
  simp only [hsub, ← Finset.sum_div]
  field_simp

end Rows

end Cert.ERealRows

end
-- ==== Proof.RowLaw.lean ====
/-
  Row-level mathematics of memory-bank attention: for one token, the logits `a j` against the bank's rows are
  turned into weights by a softmax, a soft threshold at `λ`, and a second softmax. Two spellings of these weights
  are compared here, on the extended reals:

  * `wK`: the probabilities are `e j · (1 / Σ e)` with `e j = exp (a j − max a)`; the threshold is
    `max (p − λ) 0`; the second softmax is `exp s · (1 / Σ exp s)`, with no maximum subtracted;
  * `wR`: the probabilities are the quotient `e j / Σ e`; the threshold is `sign p · max (|p| − λ) 0`; the
    second softmax subtracts the row maximum `M` of the thresholded values, `exp (s − M) / Σ exp (s − M)`.

  On a row of real numbers (no infinity) the two agree: the sum of the exponentials is a positive real, so the
  quotient is the product with the reciprocal; a probability is positive, so its sign is `1` and its absolute value
  is itself; and `exp (s − M) / Σ exp (s − M) = exp s / Σ exp s` because `exp (s − M) = exp s / exp M` with
  `exp M` a positive real common to numerator and denominator.
-/
import proofs.«124747_g57990648430879_cont_sun_c4_352_7_alg».proof.Proof.LibERealRows

noncomputable section

namespace Cert.MemAttn

open Idealize.ShloMosaic Cert.ERealRows

/-- The threshold `λ` (the pattern of `0.0025` rounded to f32) denotes a real number: it is neither infinity.
    Its value is never needed. -/
theorem ofBits_lam_real : ∃ l : ℝ, Ideal.ofBits .f32 0x3B23D70A#32 = (l : EReal) := by
  have h1 : Ideal.ofBits .f32 0x3B23D70A#32 ≠ ⊤ := by simp [Ideal.ofBits, Ideal.ieee, -EReal.coe_mul]
  have h2 : Ideal.ofBits .f32 0x3B23D70A#32 ≠ ⊥ := by simp [Ideal.ofBits, Ideal.ieee, -EReal.coe_mul]
  exact ⟨_, (EReal.coe_toReal h1 h2).symm⟩

section Rows

variable {ι : Type*} [Fintype ι]

/-! ## The weights, in the two spellings -/

/-- `exp (a j − max a)`: the exponentials of the first softmax, shifted by the row maximum (common to both spellings). -/
def expShift (a : ι → EReal) (j : ι) : EReal := Ideal.exp (a j - (Finset.univ : Finset ι).fold max ⊥ a)

/-- First softmax, as the product with the reciprocal of the sum. -/
def probK (a : ι → EReal) (j : ι) : EReal := expShift a j * Ideal.div 1 (∑ i, expShift a i)

/-- First softmax, as the quotient by the sum. -/
def probR (a : ι → EReal) (j : ι) : EReal := Ideal.div (expShift a j) (∑ i, expShift a i)

/-- Soft threshold of a probability known to be nonnegative: `max (p − λ) 0`. -/
def shrK (lam : EReal) (a : ι → EReal) (j : ι) : EReal := max (probK a j - lam) 0

/-- Soft threshold in general form: `sign p · max (|p| − λ) 0`, the absolute value as `max p (−p)`. -/
def shrR (lam : EReal) (a : ι → EReal) (j : ι) : EReal :=
  Ideal.sign (probR a j) * max (max (probR a j) (-(probR a j)) - lam) 0

/-- Second softmax with no maximum subtracted, as the product with the reciprocal of the sum. -/
def wK (lam : EReal) (a : ι → EReal) (j : ι) : EReal :=
  Ideal.exp (shrK lam a j) * Ideal.div 1 (∑ i, Ideal.exp (shrK lam a i))

/-- Second softmax with the row maximum subtracted, as the quotient by the sum. -/
def wR (lam : EReal) (a : ι → EReal) (j : ι) : EReal :=
  Ideal.div (Ideal.exp (shrR lam a j - (Finset.univ : Finset ι).fold max ⊥ (shrR lam a)))
    (∑ i, Ideal.exp (shrR lam a i - (Finset.univ : Finset ι).fold max ⊥ (shrR lam a)))

/-! ## On a real row the two spellings agree -/

variable [Nonempty ι]

/-- The shifted exponentials of a real row are positive reals. -/
theorem expShift_real (f : ι → ℝ) :
    ∃ e : ι → ℝ, (∀ j, 0 < e j) ∧ ∀ j, expShift (fun j => (f j : EReal)) j = (e j : EReal) := by
  obtain ⟨M, hM⟩ := fold_max_real f
  refine ⟨fun j => Real.exp (f j - M), fun j => Real.exp_pos _, fun j => ?_⟩
  unfold expShift
  rw [hM, ← EReal.coe_sub]
  rfl

/-- Both spellings of the first softmax of a real row are the same positive reals: the sum of the exponentials is a
    positive real, by which dividing is multiplying with the reciprocal. -/
theorem prob_real (f : ι → ℝ) :
    ∃ p : ι → ℝ, (∀ j, 0 < p j) ∧ (∀ j, probK (fun j => (f j : EReal)) j = (p j : EReal))
      ∧ (∀ j, probR (fun j => (f j : EReal)) j = (p j : EReal)) := by
  obtain ⟨e, he, hE⟩ := expShift_real f
  have hS : 0 < ∑ i, e i := Finset.sum_pos (fun i _ => he i) Finset.univ_nonempty
  have hsum : ∑ i, expShift (fun j => (f j : EReal)) i = ((∑ i, e i : ℝ) : EReal) := by
    rw [← coe_sum]; exact Finset.sum_congr rfl fun i _ => hE i
  refine ⟨fun j => e j * (1 / ∑ i, e i), fun j => mul_pos (he j) (one_div_pos.2 hS), fun j => ?_, fun j => ?_⟩
  · unfold probK; rw [hsum, hE, Ideal.div_coe hS.ne', one_mul, ← EReal.coe_mul]
  · unfold probR; rw [hsum, hE, Ideal.div_coe hS.ne', ← EReal.coe_mul]

/-- Both spellings of the threshold of a real row, at a real `λ`, are the same reals: a positive probability has sign
    `1` and is its own absolute value. -/
theorem shr_real (l : ℝ) (f : ι → ℝ) :
    ∃ s : ι → ℝ, (∀ j, shrK (l : EReal) (fun j => (f j : EReal)) j = (s j : EReal))
      ∧ (∀ j, shrR (l : EReal) (fun j => (f j : EReal)) j = (s j : EReal)) := by
  obtain ⟨p, hp, hK, hR⟩ := prob_real f
  have hmax : ∀ j, max ((p j : EReal) - (l : EReal)) 0 = ((max (p j - l) 0 : ℝ) : EReal) := fun j => by
    rw [← EReal.coe_sub, ← EReal.coe_zero]
    exact (EReal.coe_strictMono.monotone.map_max).symm
  refine ⟨fun j => max (p j - l) 0, fun j => ?_, fun j => ?_⟩
  · unfold shrK; rw [hK, hmax]
  · unfold shrR
    have hpos : (0 : EReal) < (p j : EReal) := by exact_mod_cast hp j
    have habs : max (p j : EReal) (-(p j : EReal)) = (p j : EReal) :=
      max_eq_left (by rw [← EReal.coe_neg]; exact_mod_cast (by linarith [hp j] : -(p j) ≤ p j))
    rw [hR, Ideal.sign_of_pos hpos, one_mul, habs, hmax]

/-- THE ROW LAW: on a real row and at a real threshold the two spellings of the weights agree. -/
theorem wR_eq_wK_coe (l : ℝ) (f : ι → ℝ) (j : ι) :
    wR (l : EReal) (fun j => (f j : EReal)) j = wK (l : EReal) (fun j => (f j : EReal)) j := by
  obtain ⟨s, hK, hR⟩ := shr_real l f
  have hRf : shrR (l : EReal) (fun j => (f j : EReal)) = fun j => (s j : EReal) := funext hR
  have hKf : ∀ i, shrK (l : EReal) (fun j => (f j : EReal)) i = (s i : EReal) := hK
  obtain ⟨M, hM⟩ := fold_max_real s
  unfold wR wK
  rw [hRf, hM]
  simp only [hKf]
  exact softmax_shift s M j

/-- The same for any row whose entries are all real and any threshold that is real. -/
theorem wR_eq_wK {lam : EReal} (hl : ∃ l : ℝ, lam = (l : EReal)) (a : ι → EReal) (ha : ∀ j, ∃ r : ℝ, a j = (r : EReal)) :
    wR lam a = wK lam a := by
  obtain ⟨l, rfl⟩ := hl
  choose f hf using ha
  obtain rfl : a = fun j => (f j : EReal) := funext hf
  exact funext (wR_eq_wK_coe l f)

end Rows

end Cert.MemAttn

end
-- ==== Proof.Payload.lean ====
/-
  The kernel body's one stored value, read at an entry of the output block.

  The body multiplies the token block `x` (1024 × 256) with the transposed bank (1024 × 256) into the logits
  `a p j = Σ k, x p k · bank j k`, and then works row by row: the row maximum and the row sum come back as a column
  repeated along the row, so every entry `(p, j)` of each intermediate depends only on row `p` of the logits. Read
  that way the intermediates are the row functions of `RowLaw` (`expShift`, `probK`, `shrK`, `wK`) applied to row `p`,
  and the stored value at `(p, q)` is `tanh (Σ j, wK (row p) j · bank j q)`.
-/
import proofs.«124747_g57990648430879_cont_sun_c4_352_7_alg».proof.Proof.Gen.KernelIdeal.Skeleton
import proofs.«124747_g57990648430879_cont_sun_c4_352_7_alg».proof.Proof.RowLaw
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.MemAttn Cert.ERealRows

/-! ## Layout: a vector as a column, and a column repeated along the rows -/

/-- A column made from a vector: entry `(p, 0)` is the vector's entry `p` (same row-major position). -/
theorem col_apply {α : Type} (v : S1024.Idx → α) (p : Fin 1024) (z : Fin 1) :
    shapeCast S1024x1 v shapeCasts_S1024_S1024x1 (ix2 p z) = v (ix1 p) := by
  refine shapeCast_apply v _ _ _ ?_
  rw [Shape.rowMajor_val_one, Shape.rowMajor_val_two]
  have hz := z.isLt
  show p.val = p.val * 1 + z.val
  omega

/-- A column repeated along the second axis: entry `(p, j)` is the column's entry `(p, 0)`. -/
theorem bcol_apply {α : Type} (u : S1024x1.Idx → α) (p j : Fin 1024) :
    broadcastTo S1024x1024 u broadcasts_S1024x1_S1024x1024 (ix2 p j) = u (ix2 p 0) := by
  refine broadcastTo_apply u _ _ _ fun a => ?_
  match a with
  | ⟨0, _⟩ => show p.val = if (1024 : Nat) = 1 then 0 else p.val; rw [if_neg (by decide)]
  | ⟨1, _⟩ => show 0 = if (1 : Nat) = 1 then 0 else j.val; rw [if_pos rfl]

/-! ## The two row reductions -/

/-- The maximum over the second axis, at row `p`: the fold of `max` from `-∞` over the row's entries. -/
theorem rowmax_apply (A : FVec Ideal S1024x1024 .f32) (hφ : FKind.Formats .f32)
    (hacc : (0xFF800000#32 : BitVec 32) = 0xFF800000#32) (p : Fin 1024) :
    multiReduction .maximumf [1] S1024 A 0xFF800000#32 reduces_S1024x1024_S1024 hφ hacc (ix1 p)
      = (Finset.univ : Finset (Fin 1024)).fold max ⊥ (fun i => A (ix2 p i)) := by
  refine (Ideal.multiReduction_maximumf_single A 0xFF800000#32 reduces_S1024x1024_S1024 hφ hacc (ix1 p)).trans ?_
  rw [Ideal.ofBits_def, ofBits_negInf]
  refine congrArg (fun f => (Finset.univ : Finset (Fin 1024)).fold max ⊥ f) (funext fun i => ?_)
  exact congrArg A (funext fun a => Fin.ext (by match a with | ⟨0, _⟩ => rfl | ⟨1, _⟩ => rfl))

/-- The sum over the second axis, at row `p`: the sum of the row's entries. -/
theorem rowsum_apply (A : FVec Ideal S1024x1024 .f32) (hφ : FKind.Formats .f32)
    (hacc : (0x00000000#32 : BitVec 32) = 0x00000000#32) (p : Fin 1024) :
    multiReduction .add [1] S1024 A 0x00000000#32 reduces_S1024x1024_S1024 hφ hacc (ix1 p)
      = ∑ i : Fin 1024, A (ix2 p i) := by
  refine (Ideal.multiReduction_add_single A 0x00000000#32 reduces_S1024x1024_S1024 hφ hacc (ix1 p)).trans ?_
  refine Finset.sum_congr rfl fun i _ => ?_
  exact congrArg A (funext fun a => Fin.ext (by match a with | ⟨0, _⟩ => rfl | ⟨1, _⟩ => rfl))

/-- The row maximum, made a column and repeated along the row. -/
theorem rowMaxB_apply (A : FVec Ideal S1024x1024 .f32) (hφ : FKind.Formats .f32)
    (hacc : (0xFF800000#32 : BitVec 32) = 0xFF800000#32) (p j : Fin 1024) :
    broadcastTo S1024x1024 (shapeCast S1024x1 (multiReduction .maximumf [1] S1024 A 0xFF800000#32 reduces_S1024x1024_S1024 hφ hacc)
        shapeCasts_S1024_S1024x1) broadcasts_S1024x1_S1024x1024 (ix2 p j)
      = (Finset.univ : Finset (Fin 1024)).fold max ⊥ (fun i => A (ix2 p i)) :=
  (bcol_apply _ p j).trans ((col_apply _ p 0).trans (rowmax_apply A hφ hacc p))

/-- One over the row sum, made a column and repeated along the row. -/
theorem rowRecipB_apply (E : FVec Ideal S1024x1024 .f32) (hφ : FKind.Formats .f32)
    (hacc : (0x00000000#32 : BitVec 32) = 0x00000000#32) (p j : Fin 1024) :
    broadcastTo S1024x1024 (divf (broadcast S1024x1 (FloatOps.ofBits (F := Ideal) .f32 0x3F800000#32))
        (shapeCast S1024x1 (multiReduction .add [1] S1024 E 0x00000000#32 reduces_S1024x1024_S1024 hφ hacc) shapeCasts_S1024_S1024x1))
        broadcasts_S1024x1_S1024x1024 (ix2 p j)
      = Ideal.div 1 (∑ i : Fin 1024, E (ix2 p i)) := by
  refine (bcol_apply _ p j).trans ?_
  show Ideal.div (Ideal.ofBits .f32 0x3F800000#32) (shapeCast S1024x1 _ shapeCasts_S1024_S1024x1 (ix2 p 0)) = _
  rw [ofBits_one, col_apply, rowsum_apply]

/-! ## The two matrix products at an entry -/

theorem lhs_D1_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_D1_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_D1_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_D1_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The logits: token row `p` against bank row `j`, contracted over the 256 features. -/
theorem logits_apply (x b : FVec Ideal S1024x256 .bf16) (p j : Fin 1024) :
    matmul dot_S1024x256_S1024x256_S1024x1024_1_1_0_0_n_n none x b (constant (F := Ideal) S1024x1024 .f32 0x00000000#32) (ix2 p j)
      = ∑ k : Fin 256, x (ix2 p k) * b (ix2 j k) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p j) ((contrEquiv1 dot_S1024x256_S1024x256_S1024x1024_1_1_0_0_n_n 256 rfl rfl).symm k) = ix2 p k := funext fun a => Fin.ext (by
    match a with
    | ⟨0, _⟩ => exact lhs_D1_0 _ _
    | ⟨1, _⟩ => exact (lhs_D1_1 _ _).trans hk)
  have er : dot_S1024x256_S1024x256_S1024x1024_1_1_0_0_n_n.rhsIdx (ix2 p j) ((contrEquiv1 dot_S1024x256_S1024x256_S1024x1024_1_1_0_0_n_n 256 rfl rfl).symm k) = ix2 j k := funext fun a => Fin.ext (by
    match a with
    | ⟨0, _⟩ => exact rhs_D1_0 _ _
    | ⟨1, _⟩ => exact (rhs_D1_1 _ _).trans hk)
  rw [el, er]

theorem lhs_D2_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_D2_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_D2_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_D2_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The output product: weight row `p` against bank column `q`, contracted over the 1024 bank rows. -/
theorem out_apply (w : FVec Ideal S1024x1024 .bf16) (b : FVec Ideal S1024x256 .bf16) (p : Fin 1024) (q : Fin 256) :
    matmul dot_S1024x1024_S1024x256_S1024x256_1_0_0_1_n_n none w b (constant (F := Ideal) S1024x256 .f32 0x00000000#32) (ix2 p q)
      = ∑ j : Fin 1024, w (ix2 p j) * b (ix2 j q) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p q) ((contrEquiv1 dot_S1024x1024_S1024x256_S1024x256_1_0_0_1_n_n 1024 rfl rfl).symm k) = ix2 p k := funext fun a => Fin.ext (by
    match a with
    | ⟨0, _⟩ => exact lhs_D2_0 _ _
    | ⟨1, _⟩ => exact (lhs_D2_1 _ _).trans hk)
  have er : dot_S1024x1024_S1024x256_S1024x256_1_0_0_1_n_n.rhsIdx (ix2 p q) ((contrEquiv1 dot_S1024x1024_S1024x256_S1024x256_1_0_0_1_n_n 1024 rfl rfl).symm k) = ix2 k q := funext fun a => Fin.ext (by
    match a with
    | ⟨0, _⟩ => exact (rhs_D2_0 _ _).trans hk
    | ⟨1, _⟩ => exact rhs_D2_1 _ _)
  rw [el, er]

/-! ## The row-wise stages of the body, as functions of the logits block -/

/-- The threshold as the body spells it. -/
abbrev lam : EReal := Ideal.ofBits .f32 0x3B23D70A#32

/-- Row `p` of a 1024 × 1024 block. -/
abbrev row (a : FVec Ideal S1024x1024 .f32) (p : Fin 1024) : Fin 1024 → EReal := fun i => a (ix2 p i)

/-- `exp (a − rowmax a)`. -/
def E1 (a : FVec Ideal S1024x1024 .f32) : FVec Ideal S1024x1024 .f32 :=
  exp (subf a (broadcastTo S1024x1024 (shapeCast S1024x1 (multiReduction .maximumf [1] S1024 a 0xFF800000#32 reduces_S1024x1024_S1024 (.inl rfl) rfl)
    shapeCasts_S1024_S1024x1) broadcasts_S1024x1_S1024x1024))

/-- A block times one over its row sums. -/
def normRows (E : FVec Ideal S1024x1024 .f32) : FVec Ideal S1024x1024 .f32 :=
  mulf E (broadcastTo S1024x1024 (divf (broadcast S1024x1 (Scalar.ofBits .f32 0x3F800000#32))
    (shapeCast S1024x1 (multiReduction .add [1] S1024 E 0x00000000#32 reduces_S1024x1024_S1024 (.inl rfl) rfl) shapeCasts_S1024_S1024x1))
    broadcasts_S1024x1_S1024x1024)

/-- The thresholded probabilities. -/
def Sh (a : FVec Ideal S1024x1024 .f32) : FVec Ideal S1024x1024 .f32 :=
  maximumf (subf (normRows (E1 a)) (broadcast S1024x1024 (Scalar.ofBits .f32 0x3B23D70A#32))) (broadcast S1024x1024 (Scalar.ofBits .f32 0x00000000#32))

/-- The weights. -/
def W (a : FVec Ideal S1024x1024 .f32) : FVec Ideal S1024x1024 .f32 := normRows (exp (Sh a))

theorem E1_apply (a : FVec Ideal S1024x1024 .f32) (p j : Fin 1024) : E1 a (ix2 p j) = expShift (row a p) j := by
  unfold E1 expShift
  show Ideal.exp (a (ix2 p j) - broadcastTo S1024x1024 _ broadcasts_S1024x1_S1024x1024 (ix2 p j)) = _
  rw [rowMaxB_apply]

theorem normRows_apply (E : FVec Ideal S1024x1024 .f32) (p j : Fin 1024) :
    normRows E (ix2 p j) = E (ix2 p j) * Ideal.div 1 (∑ i : Fin 1024, E (ix2 p i)) := by
  unfold normRows
  show E (ix2 p j) * broadcastTo S1024x1024 _ broadcasts_S1024x1_S1024x1024 (ix2 p j) = _
  rw [rowRecipB_apply]

theorem Sh_apply (a : FVec Ideal S1024x1024 .f32) (p j : Fin 1024) : Sh a (ix2 p j) = shrK lam (row a p) j := by
  unfold Sh shrK probK
  show max (normRows (E1 a) (ix2 p j) - Ideal.ofBits .f32 0x3B23D70A#32) (Ideal.ofBits .f32 0x00000000#32) = _
  rw [normRows_apply, Ideal.ofBits_zero_f32]
  simp only [E1_apply]

theorem W_apply (a : FVec Ideal S1024x1024 .f32) (p j : Fin 1024) : W a (ix2 p j) = wK lam (row a p) j := by
  unfold W wK
  rw [normRows_apply]
  show Ideal.exp (Sh a (ix2 p j)) * Ideal.div 1 (∑ i : Fin 1024, Ideal.exp (Sh a (ix2 p i))) = _
  simp only [Sh_apply]

/-! ## The stored value -/

/-- The body's stored value is `tanh` of the weights block times the bank, the weights block being `W` of the logits block. -/
theorem pay_eq (v0 v2 : Vec Ideal S1024x256 .f32) :
    k0_pay1 (F := Ideal) v0 v2
      = tanh (matmul dot_S1024x1024_S1024x256_S1024x256_1_0_0_1_n_n none
          (truncf .bf16 (W (matmul dot_S1024x256_S1024x256_S1024x1024_1_1_0_0_n_n none (truncf .bf16 v0 bitsLt_bf16_f32) (truncf .bf16 v2 bitsLt_bf16_f32)
            (constant S1024x1024 .f32 0x00000000#32))) bitsLt_bf16_f32)
          (truncf .bf16 v2 bitsLt_bf16_f32) (constant S1024x256 .f32 0x00000000#32)) := rfl

/-- THE STORED VALUE AT AN ENTRY: `tanh (Σ j, w j · bank j q)`, the weights `w` those of the logits of token row `p`. -/
theorem payload_apply (v0 v2 : Vec Ideal S1024x256 .f32) (p : Fin 1024) (q : Fin 256) :
    k0_pay1 (F := Ideal) v0 v2 (ix2 p q)
      = Ideal.tanh (∑ j : Fin 1024, wK lam (fun j' => ∑ k : Fin 256, v0 (ix2 p k) * v2 (ix2 j' k)) j * v2 (ix2 j q)) := by
  rw [pay_eq]
  show Ideal.tanh (matmul (F := Ideal) dot_S1024x1024_S1024x256_S1024x256_1_0_0_1_n_n none _ _ _ (ix2 p q)) = _
  rw [out_apply]
  refine congrArg Ideal.tanh (Finset.sum_congr rfl fun j _ => ?_)
  show W _ (ix2 p j) * v2 (ix2 j q) = _
  rw [W_apply]
  refine congrArg (fun r => wK lam r j * v2 (ix2 j q)) (funext fun j' => ?_)
  exact logits_apply _ _ p j'

end Cert.KernelIdeal.Payload

end
-- ==== Proof.Spec.lean ====
/-
  The result array as one function of the two argument arrays.

  For token row `r` the logits against the 1024 bank rows are `logits x B r j = Σ k, x r k · B j k`; the result's
  entry `(r, q)` is `tanh (Σ j, w j · B j q)` with `w` the weights of that row of logits, in either spelling of
  `RowLaw` (`outK` with `wK`, `outR` with `wR`). When both arrays hold real numbers every logit is a real (a finite
  sum of products of reals), so the two spellings agree entry by entry.
-/
import proofs.«124747_g57990648430879_cont_sun_c4_352_7_alg».proof.Proof.RowLaw
import Idealize.ShloMosaic.Lib.ValueIdx

noncomputable section

namespace Cert.MemAttn

open Idealize.ShloMosaic Idealize.ShloMosaic.ValueIdx Cert.ERealRows

/-- The shape of the token array and of the result. -/
abbrev SX : Shape := ⟨2, ![16384, 256]⟩
/-- The shape of the bank. -/
abbrev SB : Shape := ⟨2, ![1024, 256]⟩

/-- The logits of token row `r`: its inner products with the bank's rows. -/
def logits (x : SX.Idx → EReal) (B : SB.Idx → EReal) (r : Fin 16384) : Fin 1024 → EReal :=
  fun j => ∑ k : Fin 256, x (ix2 r k) * B (ix2 j k)

/-- Entry `(r, q)` of the result, the weights in the product-with-reciprocal spelling. -/
def outK (lamv : EReal) (x : SX.Idx → EReal) (B : SB.Idx → EReal) (r : Fin 16384) (q : Fin 256) : EReal :=
  Ideal.tanh (∑ j : Fin 1024, wK lamv (logits x B r) j * B (ix2 j q))

/-- Entry `(r, q)` of the result, the weights in the quotient spelling. -/
def outR (lamv : EReal) (x : SX.Idx → EReal) (B : SB.Idx → EReal) (r : Fin 16384) (q : Fin 256) : EReal :=
  Ideal.tanh (∑ j : Fin 1024, wR lamv (logits x B r) j * B (ix2 j q))

/-- The result array. -/
def G (lamv : EReal) (x : SX.Idx → EReal) (B : SB.Idx → EReal) : SX.Idx → EReal :=
  fun i => outK lamv x B (i 0) (i 1)

theorem G_apply (lamv : EReal) (x : SX.Idx → EReal) (B : SB.Idx → EReal) (r : Fin 16384) (q : Fin 256) :
    G lamv x B (ix2 r q) = outK lamv x B r q := rfl

/-- On real arrays, at a real threshold, the two spellings give the same entries. -/
theorem outR_eq_outK {lamv : EReal} (hl : ∃ l : ℝ, lamv = (l : EReal)) (x : SX.Idx → EReal) (B : SB.Idx → EReal)
    (hx : ∀ i, ∃ r : ℝ, x i = (r : EReal)) (hB : ∀ i, ∃ r : ℝ, B i = (r : EReal)) (r : Fin 16384) (q : Fin 256) :
    outR lamv x B r q = outK lamv x B r q := by
  haveI : Nonempty (Fin 1024) := ⟨⟨0, by decide⟩⟩
  have hlog : ∀ j, ∃ a : ℝ, logits x B r j = (a : EReal) := fun j => by
    choose xr hxr using hx
    choose br hbr using hB
    unfold logits
    simp only [hxr, hbr]
    exact sum_mul_real _ _
  unfold outR outK
  rw [wR_eq_wK hl (logits x B r) hlog]

end Cert.MemAttn

end
-- ==== Proof.KernelValue.lean ====
/-
  From blocks to the whole array: what the kernel leaves in its result array.

  The grid walks 16 token blocks of 1024 rows. At point `t` the token window holds rows `1024 t … 1024 t + 1023` of the
  token array, the bank window holds the whole bank (its block index is (0, 0) at every point), and the output window
  writes back rows `1024 t … 1024 t + 1023` of the result. So entry `(p, q)` of what point `t` writes is entry
  `(1024 t + p, q)` of the result function `G`, which depends on token row `1024 t + p` only; and the 16 blocks cover
  all 16384 rows (row `r` lies in block `r / 1024`), so after the run the array is `G` everywhere.
-/
import proofs.«124747_g57990648430879_cont_sun_c4_352_7_alg».proof.Proof.Gen.KernelIdeal.Value
import proofs.«124747_g57990648430879_cont_sun_c4_352_7_alg».proof.Proof.Payload
import proofs.«124747_g57990648430879_cont_sun_c4_352_7_alg».proof.Proof.Spec
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.MemAttn Cert.KernelIdeal.Payload

variable (m : (ℓ : Loc nD τ sig) → Buf (Elt Ideal) ℓ) (ρ : Dev nD → PrngReg)

theorem hz : (![0, 0] : Fin 2 → Nat) = fun _ => 0 := funext fun a => by fin_cases a <;> rfl

/-- The token array as the region finds it. -/
abbrev xarr (c : Dev nD) : S16384x256.Idx → EReal := V m c main_arg0
/-- The bank as the region finds it. -/
abbrev barr (c : Dev nD) : S1024x256.Idx → EReal := V m c main_arg1

/-- The result array, as a buffer of the result's location. -/
abbrev res (c : Dev nD) : Buf (Elt Ideal) ((c : Thread nD τ).loc main_v0) := G lam (xarr m c) (barr m c)

/-- The printed index maps over the 16 grid points: the token and output windows are at block row `t`, column 0; the
    bank window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row below 16 is some point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- An entry of the stored value whose token row is row `r` of the token array, the bank block being the bank, is the
    result function's entry `(r, q)`. -/
theorem block_entry (X : S16384x256.Idx → EReal) (B : S1024x256.Idx → EReal) (v0 v2 : Vec Ideal S1024x256 .f32)
    (p : Fin 1024) (q : Fin 256) (r : Fin 16384)
    (h0 : ∀ k : Fin 256, v0 (ix2 p k) = X (ix2 r k)) (h2 : ∀ (j : Fin 1024) (k : Fin 256), v2 (ix2 j k) = B (ix2 j k)) :
    k0_pay1 (F := Ideal) v0 v2 (ix2 p q) = outK lam X B r q := by
  rw [payload_apply]
  unfold outK logits
  simp only [h0, h2]

/-- WHAT POINT `t` WRITES BACK is block `t` of the result function of the two arrays as the region finds them. -/
theorem flushed_eq (c : Dev nD) (t : Fin cfg0.N) :
    (dats m 0 c).flushed 2 t = ((cfg0.win 2).blk t).view.read (Elt Ideal) (res m c) := by
  rw [Cert.KernelIdeal.Value.flushed2]
  unfold out0_2
  rw [View.canon_unit_zero hz]
  simp only [View.ld_unit_zero (S := S1024x256) hz]
  obtain ⟨f0, f1, f2, f3, f4, f5⟩ := idx_facts t
  have ht : t.val < 16 := lt_of_lt_of_eq t.isLt N_0
  funext y
  obtain ⟨p, q, rfl⟩ : ∃ (p : Fin 1024) (q : Fin 256), y = ix2 p q := ⟨y 0, y 1, eq_ix2 y⟩
  have hp := p.isLt
  have hq := q.isLt
  show k0_pay1 (F := Ideal) (iblk m c 0 t) (iblk m c 1 t) (ix2 p q) = G lam (xarr m c) (barr m c) (((cfg0.win 2).blk t).view.emb (ix2 p q))
  have hemb : ((cfg0.win 2).blk t).view.emb (ix2 p q) = ix2 (⟨t.val * 1024 + p.val, by omega⟩ : Fin 16384) q := funext fun a => Fin.ext (by
    match a with
    | ⟨0, _⟩ => show win0_2.index t (0 : Fin 2) * 1024 + 1 * p.val = t.val * 1024 + p.val; omega
    | ⟨1, _⟩ => show win0_2.index t (1 : Fin 2) * 256 + 1 * q.val = q.val; omega)
  rw [hemb, G_apply]
  refine block_entry (xarr m c) (barr m c) (iblk m c 0 t) (iblk m c 1 t) p q _ (fun k => ?_) (fun j k => ?_)
  · have hk := k.isLt
    show V m c main_arg0 (((cfg0.win 0).blk t).view.emb (ix2 p k)) = V m c main_arg0 (ix2 (⟨t.val * 1024 + p.val, by omega⟩ : Fin 16384) k)
    refine congrArg (V m c main_arg0) (funext fun a => Fin.ext ?_)
    match a with
    | ⟨0, _⟩ => show win0_0.index t (0 : Fin 2) * 1024 + 1 * p.val = t.val * 1024 + p.val; omega
    | ⟨1, _⟩ => show win0_0.index t (1 : Fin 2) * 256 + 1 * k.val = k.val; omega
  · have hj := j.isLt
    have hk := k.isLt
    show V m c main_arg1 (((cfg0.win 1).blk t).view.emb (ix2 j k)) = V m c main_arg1 (ix2 j k)
    refine congrArg (V m c main_arg1) (funext fun a => Fin.ext ?_)
    match a with
    | ⟨0, _⟩ => show win0_1.index t (0 : Fin 2) * 1024 + 1 * j.val = j.val; omega
    | ⟨1, _⟩ => show win0_1.index t (1 : Fin 2) * 256 + 1 * k.val = k.val; omega

/-- An index of the result array is in point `t`'s block iff each coordinate is in the block's range on its axis. -/
theorem mem_blk (t : Fin cfg0.N) (i : S16384x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v0).slice (win0_2.rect t)).set ↔ _
  rw [View.set_slice_whole, Rect.mem_set_unit]
  exact Iff.rfl

/-- THE RESULT ARRAY after the run is the result function everywhere: the 16 blocks cover all rows. -/
theorem final (c : Dev nD) : (dats m 0 c).arrAt 2 cfg0.N = res m c :=
  (dats m 0 c).arrAt_eq_of_cover 2 (res m c) (fun t _ => flushed_eq m c t) fun i => by
    have hi0 : (i 0).val < 16384 := (i 0).isLt
    have hi1 : (i 1).val < 256 := (i 1).isLt
    obtain ⟨t, ht⟩ := idx_onto ⟨(i 0).val / 1024, by omega⟩
    have q0 : win0_2.index t (0 : Fin 2) = (i 0).val / 1024 := congrFun ht 0
    have q1 : win0_2.index t (1 : Fin 2) = 0 := congrFun ht 1
    refine ⟨t, flush0_2 t, ?_⟩
    rw [mem_blk]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 256 ≤ (i 1).val ∧ (i 1).val < win0_2.index t (1 : Fin 2) * 256 + 256; omega

/-- The kernel's run, read: the result array at the result function of the arguments, the arguments unchanged. -/
theorem run : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩)
    (Cert.KernelIdeal.Value.run_blocks m ρ)

end Cert.KernelIdeal.Whole

end
-- ==== Proof.RefRead.lean ====
/-
  The reference program read at an entry of its result.

  The reference computes the logits `input · bankᵀ`, a softmax along the bank axis (maximum subtracted, quotient by
  the sum), the soft threshold `sign p · max (|p| − λ) 0`, a second softmax of the same form, the product with the
  bank and `tanh`. Every stage between the two products works row by row, so at entry `(r, j)` it is a function of
  row `r` of the logits: the stages are read here, in program order, as the row functions of `RowLaw` in the
  quotient spelling (`expShift`, `probR`, `shrR`, `wR`). The two row maxima are folds of `max` from `-∞`, and
  `max (-∞) m = m`; the two sums start from `0`.
-/
import proofs.«124747_g57990648430879_cont_sun_c4_352_7_alg».proof.Proof.Gen.ReferenceIdeal.Read
import proofs.«124747_g57990648430879_cont_sun_c4_352_7_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.MemAttn Cert.ERealRows

variable (x0 : (⟨S16384x256, .f32⟩ : BufTy).Contents (Elt Ideal)) (x1 : (⟨S1024x256, .f32⟩ : BufTy).Contents (Elt Ideal))

/-- The threshold as the program spells it. -/
abbrev lam : EReal := Ideal.ofBits .f32 0x3B23D70A#32

/-- Row `r` of the logits stage. -/
abbrev row (r : Fin 16384) : Fin 1024 → EReal := fun j => val_main_v1 (F := Ideal) x0 x1 (ix2 r j)

/-- The logits: token row `r` against bank row `j` (the transposed bank's column `j`). -/
theorem logits_ref (r : Fin 16384) (j : Fin 1024) :
    val_main_v1 (F := Ideal) x0 x1 (ix2 r j) = ∑ k : Fin 256, x0 (ix2 r k) * x1 (ix2 j k) := by
  rw [val_main_v1_apply]
  refine Finset.sum_congr rfl fun k _ => ?_
  rw [val_main_v0_apply]
  have e1 : lidx_main_v1 (ix2 r j) k = ix2 r k := funext fun a => Fin.ext (by match a with | ⟨0, _⟩ => rfl | ⟨1, _⟩ => rfl)
  have e2 : idx_main_v0 (ridx_main_v1 (ix2 r j) k) = ix2 j k := funext fun a => Fin.ext (by match a with | ⟨0, _⟩ => rfl | ⟨1, _⟩ => rfl)
  rw [e1, e2]

/-- A maximum over the bank axis from `-∞`, at row `r`: the fold of `max` from `-∞` over the row. -/
theorem hostRowMax_apply (y : S16384x1024.Idx → Ideal .f32) (r : Fin 16384) :
    Host.reduce (FloatOps.maximumf (F := Ideal) (φ := .f32)) y (constant (F := Ideal) S_ .f32 0xFF800000#32) reducesTo_S16384x1024_S16384_d1 h_S_ (ix1 r)
      = (Finset.univ : Finset (Fin 1024)).fold max ⊥ (fun j => y (ix2 r j)) := by
  refine (Host.reduce_eq_fold_single (FloatOps.maximumf (F := Ideal) (φ := .f32)) y _ reducesTo_S16384x1024_S16384_d1 (by decide) h_S_ (ix1 r)).trans ?_
  show (Finset.univ : Finset (Fin 1024)).fold max (Ideal.ofBits .f32 0xFF800000#32) _ = _
  rw [ofBits_negInf]
  refine congrArg (fun f => (Finset.univ : Finset (Fin 1024)).fold max ⊥ f) (funext fun i => ?_)
  exact congrArg y (funext fun a => Fin.ext (by match a with | ⟨0, _⟩ => rfl | ⟨1, _⟩ => rfl))

/-- The first row maximum. -/
theorem v4_at (r : Fin 16384) :
    val_main_v4 (F := Ideal) x0 x1 (ix1 r) = (Finset.univ : Finset (Fin 1024)).fold max ⊥ (row x0 x1 r) := by
  rw [val_main_v4_apply, val_main_v3_apply, val_main_cst_0_apply]
  show max (Ideal.ofBits .f32 0xFF800000#32) (val_main_v2 (F := Ideal) x0 x1 (ix1 r)) = _
  rw [ofBits_negInf, max_bot_left]
  unfold val_main_v2
  exact hostRowMax_apply _ r

/-- The first row maximum, repeated along the row. -/
theorem v6_at (r : Fin 16384) (j : Fin 1024) :
    val_main_v6 (F := Ideal) x0 x1 (ix2 r j) = (Finset.univ : Finset (Fin 1024)).fold max ⊥ (row x0 x1 r) := by
  rw [val_main_v6_apply, val_main_v5_apply]
  have e : idx_main_v5 (idx_main_v6 (ix2 r j)) = ix1 r := funext fun a => Fin.ext (by match a with | ⟨0, _⟩ => rfl)
  rw [e, v4_at]

/-- The shifted exponentials. -/
theorem v8_at (r : Fin 16384) (j : Fin 1024) :
    val_main_v8 (F := Ideal) x0 x1 (ix2 r j) = expShift (row x0 x1 r) j := by
  rw [val_main_v8_apply, val_main_v7_apply, v6_at]
  rfl

/-- Their row sum, repeated along the row. -/
theorem v11_at (r : Fin 16384) (j : Fin 1024) :
    val_main_v11 (F := Ideal) x0 x1 (ix2 r j) = ∑ i : Fin 1024, expShift (row x0 x1 r) i := by
  rw [val_main_v11_apply, val_main_v10_apply]
  have e : idx_main_v10 (idx_main_v11 (ix2 r j)) = ix1 r := funext fun a => Fin.ext (by match a with | ⟨0, _⟩ => rfl)
  rw [e, val_main_v9_apply, val_main_cst_1_apply]
  show Ideal.ofBits .f32 0x00000000#32 + _ = _
  rw [Ideal.ofBits_zero_f32, zero_add]
  refine Finset.sum_congr rfl fun k _ => ?_
  have e2 : idx_main_v9 (ix1 r) k = ix2 r k := funext fun a => Fin.ext (by match a with | ⟨0, _⟩ => rfl | ⟨1, _⟩ => rfl)
  rw [e2, v8_at]

/-- The probabilities, as a quotient. -/
theorem v12_at (r : Fin 16384) (j : Fin 1024) :
    val_main_v12 (F := Ideal) x0 x1 (ix2 r j) = probR (row x0 x1 r) j := by
  rw [val_main_v12_apply, v8_at, v11_at]
  rfl

/-- The thresholded probabilities. -/
theorem v19_at (r : Fin 16384) (j : Fin 1024) :
    val_main_v19 (F := Ideal) x0 x1 (ix2 r j) = shrR lam (row x0 x1 r) j := by
  rw [val_main_v19_apply, val_main_v13_apply, val_main_v18_apply, val_main_v16_apply, val_main_v14_apply, val_main_v15_apply,
    val_main_cst_2_apply, val_main_v17_apply, val_main_cst_3_apply, v12_at]
  show Ideal.sign _ * max (max _ (-_) - Ideal.ofBits .f32 0x3B23D70A#32) (Ideal.ofBits .f32 0x00000000#32) = _
  rw [Ideal.ofBits_zero_f32]
  rfl

/-- The second row maximum, repeated along the row. -/
theorem v24_at (r : Fin 16384) (j : Fin 1024) :
    val_main_v24 (F := Ideal) x0 x1 (ix2 r j) = (Finset.univ : Finset (Fin 1024)).fold max ⊥ (shrR lam (row x0 x1 r)) := by
  rw [val_main_v24_apply, val_main_v23_apply]
  have e : idx_main_v23 (idx_main_v24 (ix2 r j)) = ix1 r := funext fun a => Fin.ext (by match a with | ⟨0, _⟩ => rfl)
  rw [e, val_main_v22_apply, val_main_v21_apply, val_main_cst_5_apply]
  show max (Ideal.ofBits .f32 0xFF800000#32) (val_main_v20 (F := Ideal) x0 x1 (ix1 r)) = _
  rw [ofBits_negInf, max_bot_left]
  unfold val_main_v20
  refine (hostRowMax_apply _ r).trans ?_
  exact congrArg (fun f => (Finset.univ : Finset (Fin 1024)).fold max ⊥ f) (funext fun i => v19_at x0 x1 r i)

/-- The exponentials of the second softmax, shifted by that maximum. -/
theorem v26_at (r : Fin 16384) (j : Fin 1024) :
    val_main_v26 (F := Ideal) x0 x1 (ix2 r j)
      = Ideal.exp (shrR lam (row x0 x1 r) j - (Finset.univ : Finset (Fin 1024)).fold max ⊥ (shrR lam (row x0 x1 r))) := by
  rw [val_main_v26_apply, val_main_v25_apply, v19_at, v24_at]
  rfl

/-- The weights, as a quotient. -/
theorem v30_at (r : Fin 16384) (j : Fin 1024) :
    val_main_v30 (F := Ideal) x0 x1 (ix2 r j) = wR lam (row x0 x1 r) j := by
  rw [val_main_v30_apply, v26_at, val_main_v29_apply, val_main_v28_apply]
  have e : idx_main_v28 (idx_main_v29 (ix2 r j)) = ix1 r := funext fun a => Fin.ext (by match a with | ⟨0, _⟩ => rfl)
  rw [e, val_main_v27_apply, val_main_cst_6_apply]
  show Ideal.div _ (Ideal.ofBits .f32 0x00000000#32 + _) = _
  rw [Ideal.ofBits_zero_f32, zero_add]
  unfold wR
  refine congrArg (Ideal.div _) (Finset.sum_congr rfl fun k _ => ?_)
  have e2 : idx_main_v27 (ix1 r) k = ix2 r k := funext fun a => Fin.ext (by match a with | ⟨0, _⟩ => rfl | ⟨1, _⟩ => rfl)
  rw [e2, v26_at]

/-- THE REFERENCE'S RESULT AT AN ENTRY: `outR` of the two arguments. -/
theorem ref_apply (r : Fin 16384) (q : Fin 256) :
    val_main_v32 (F := Ideal) x0 x1 (ix2 r q) = outR lam x0 x1 r q := by
  rw [val_main_v32_apply, val_main_v31_apply, Ideal.hostUnary_tanh_def]
  unfold outR
  refine congrArg Ideal.tanh (Finset.sum_congr rfl fun j _ => ?_)
  have e1 : lidx_main_v31 (ix2 r q) j = ix2 r j := funext fun a => Fin.ext (by match a with | ⟨0, _⟩ => rfl | ⟨1, _⟩ => rfl)
  have e2 : ridx_main_v31 (ix2 r q) j = ix2 j q := funext fun a => Fin.ext (by match a with | ⟨0, _⟩ => rfl | ⟨1, _⟩ => rfl)
  rw [e1, e2, v30_at]
  exact congrArg (fun w => wR lam w j * x1 (ix2 j q)) (funext fun j' => logits_ref x0 x1 r j')

end Cert.ReferenceIdeal.RefValue

end
-- ==== Proof.Finite.lean ====
/-
  The precondition, read back: every entry of both argument arrays is a real number.

  `finite_inputs` states, for each of the two arrays, that `|x| < +∞` holds at every entry (an `and`-reduction of the
  comparisons over all indices, started from `true`), and takes the conjunction of the two. On the extended reals
  `|x| = max x (−x)` is `+∞` exactly at the two infinities, so `|x| < +∞` says that `x` is a real.
-/
import proofs.«124747_g57990648430879_cont_sun_c4_352_7_alg».proof.Pre_finite_inputs
import proofs.«124747_g57990648430879_cont_sun_c4_352_7_alg».proof.Proof.LibERealRows
import Idealize.ShloMosaic.Lib.ReduceAll
import Idealize.ShloMosaic.Lib.ValueIdx
import Idealize.ShloMosaic.PureOps.Ideal
import Idealize.ShloMosaic.PureOps.Ideal.Laws

noncomputable section

namespace Cert.MemAttn.Finite

open Idealize.ShloMosaic Cert.Pre_finite_inputs Cert.ERealRows

variable [Cert.Pre_finite_inputs.Facts]

/-- Under `finite_inputs` both arrays hold real numbers only. -/
theorem real_of_pre (x0 : FVec Ideal S16384x256 .f32) (x1 : FVec Ideal S1024x256 .f32)
    (h : Cert.Pre_finite_inputs.fn (F := Ideal) x0 x1 = fun _ => 1#1) :
    (∀ i, ∃ r : ℝ, x0 i = (r : EReal)) ∧ (∀ i, ∃ r : ℝ, x1 i = (r : EReal)) := by
  haveI : Subsingleton S_.Idx := ⟨fun a b => funext fun d => d.elim0⟩
  have h0 := congrFun h ValueIdx.ix0
  dsimp only [Cert.Pre_finite_inputs.fn] at h0
  obtain ⟨ha, hb⟩ := IntOp.andi_eq_one.1 h0
  refine ⟨fun i => ?_, fun i => ?_⟩
  · exact real_of_abs_lt_inf _ (Host.reduce_andi_all _ _ _ _ _ ha i)
  · exact real_of_abs_lt_inf _ (Host.reduce_andi_all _ _ _ _ _ hb i)

end Cert.MemAttn.Finite

end
-- ==== Proof.lean ====
/- Memory-bank attention, fused in one kernel against its plain reference, equal over the extended reals.

   Both programs compute, for each of 16384 token rows `x r` and a bank of 1024 rows `B j` (256 features),
   `out r q = tanh (Σ j, w r j · B j q)`, the weights `w r` being a softmax of the logits `a r j = Σ k, x r k · B j k`,
   soft-thresholded at `λ`, and passed through a second softmax. They spell the weights differently: the kernel multiplies
   by the reciprocal of each row sum where the reference divides; it thresholds a probability as `max (p − λ) 0` where the
   reference writes `sign p · max (|p| − λ) 0`; and its second softmax subtracts no maximum where the reference's does.
   On real inputs (the precondition: no infinity) the logits are real, the row sums are positive reals, the probabilities
   are positive, and `exp (s − M) / Σ exp (s − M) = exp s / Σ exp s`: the spellings agree (Proof/RowLaw.lean, lifted to
   the arrays in Proof/Spec.lean). Format changes between f32 and bf16 are the identity here, and a matrix product into a
   zero accumulator is the plain sum on both sides.

   The kernel's side: its one stored value at an entry is `tanh (Σ j, wK … j · B j q)` of the token block's row
   (Proof/Payload.lean); the 16 row blocks of 1024 rows tile the result, block `t` reading token rows `1024 t …` and the
   whole bank, so the array ends as the function `G` of the two arguments (Proof/KernelValue.lean, over the generated
   blockwise value module). The reference's side: its generated run, read one operation at a time at an entry, is the
   same expression in the reference's spelling (Proof/RefRead.lean, over the generated run and read-at-an-index modules).
   The precondition gives real entries (Proof/Finite.lean). The three frames are the generated ones (the reference's
   is its run with the result dropped), and the idealization rewrote nothing, so `preserves` is `True`. -/
import proofs.«124747_g57990648430879_cont_sun_c4_352_7_alg».proof.Defs
import proofs.«124747_g57990648430879_cont_sun_c4_352_7_alg».proof.Proof.Gen.Kernel
import proofs.«124747_g57990648430879_cont_sun_c4_352_7_alg».proof.Proof.Gen.Kernel.Skeleton
import proofs.«124747_g57990648430879_cont_sun_c4_352_7_alg».proof.Proof.Gen.Kernel.Launch
import proofs.«124747_g57990648430879_cont_sun_c4_352_7_alg».proof.Proof.Gen.Kernel.Points
import proofs.«124747_g57990648430879_cont_sun_c4_352_7_alg».proof.Proof.Gen.Kernel.Frame
import proofs.«124747_g57990648430879_cont_sun_c4_352_7_alg».proof.Proof.Gen.KernelIdeal
import proofs.«124747_g57990648430879_cont_sun_c4_352_7_alg».proof.Proof.Gen.KernelIdeal.Skeleton
import proofs.«124747_g57990648430879_cont_sun_c4_352_7_alg».proof.Proof.Gen.KernelIdeal.Launch
import proofs.«124747_g57990648430879_cont_sun_c4_352_7_alg».proof.Proof.Gen.KernelIdeal.Points
import proofs.«124747_g57990648430879_cont_sun_c4_352_7_alg».proof.Proof.Gen.KernelIdeal.Frame
import proofs.«124747_g57990648430879_cont_sun_c4_352_7_alg».proof.Proof.Gen.ReferenceIdeal
import proofs.«124747_g57990648430879_cont_sun_c4_352_7_alg».proof.Proof.Gen.Pre_finite_inputs
import proofs.«124747_g57990648430879_cont_sun_c4_352_7_alg».proof.Proof.Gen.KernelIdeal.Value
import proofs.«124747_g57990648430879_cont_sun_c4_352_7_alg».proof.Proof.Gen.ReferenceIdeal.Run
import proofs.«124747_g57990648430879_cont_sun_c4_352_7_alg».proof.Proof.Gen.ReferenceIdeal.Read
import proofs.«124747_g57990648430879_cont_sun_c4_352_7_alg».proof.Proof.KernelValue
import proofs.«124747_g57990648430879_cont_sun_c4_352_7_alg».proof.Proof.RefRead
import proofs.«124747_g57990648430879_cont_sun_c4_352_7_alg».proof.Proof.Finite
import Idealize.ShloMosaic.Adequacy
import Idealize.ShloMosaic.Init

noncomputable section

namespace Cert.Proof

open Idealize.ShloMosaic Idealize.SL.Sem Idealize.ShloMosaic.ValueIdx Cert.MemAttn

/-- The word-level kernel runs and leaves its arguments alone: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and leaves its arguments alone: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs end with equal results: the kernel's array is `G` of the arguments (`outK` entry by
    entry), the reference's is `outR` entry by entry, the arguments agree, and on the real entries the precondition
    gives, `outR = outK`. -/
theorem algebraic : Cert.algebraic_KernelIdeal_ReferenceIdeal := by
  intro m ρ m' ρ' hpre hagree
  refine ⟨fun c => Cert.KernelIdeal.Whole.res m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2]
  obtain ⟨hx, hB⟩ := Cert.MemAttn.Finite.real_of_pre _ _ (hpre c)
  funext i
  obtain ⟨r, q, rfl⟩ : ∃ (r : Fin 16384) (q : Fin 256), i = ix2 r q := ⟨i 0, i 1, eq_ix2 i⟩
  rw [Cert.ReferenceIdeal.RefValue.ref_apply]
  exact outR_eq_outK ofBits_lam_real _ _ hx hB r q

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
